-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x16 : Shape := ⟨2, ![64, 16]⟩
abbrev S16 : Shape := ⟨1, ![16]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x1 .f32) (main_arg6 : FVec F S1 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S2097152x32 .f32) (main_arg1 : FVec F S32x64 .f32) (main_arg2 : FVec F S64 .f32) (main_arg3 : FVec F S64x64 .f32) (main_arg4 : FVec F S64 .f32) (main_arg5 : FVec F S64x1 .f32) (main_arg6 : FVec F S1 .f32) (main_arg7 : FVec F S64x16 .f32) (main_arg8 : FVec F S16 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x16 : Shape := ⟨2, ![64, 16]⟩
abbrev S16 : Shape := ⟨1, ![16]⟩
abbrev S1x64 : Shape := ⟨2, ![1, 64]⟩
abbrev S1x1 : Shape := ⟨2, ![1, 1]⟩
abbrev S1x16 : Shape := ⟨2, ![1, 16]⟩
abbrev S2097152x17 : Shape := ⟨2, ![2097152, 17]⟩
abbrev S4096x32 : Shape := ⟨2, ![4096, 32]⟩
abbrev S4096x17 : Shape := ⟨2, ![4096, 17]⟩
abbrev S4096x64 : Shape := ⟨2, ![4096, 64]⟩
abbrev S4096x1 : Shape := ⟨2, ![4096, 1]⟩
abbrev S4096x16 : Shape := ⟨2, ![4096, 16]⟩
abbrev S2097152x1 : Shape := ⟨2, ![2097152, 1]⟩
abbrev S2097152 : Shape := ⟨1, ![2097152]⟩
abbrev S2097152x16 : Shape := ⟨2, ![2097152, 16]⟩

abbrev nBuf : Space → Nat
  | .hbm => 17
  | .vmem => 12
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x16, .f32⟩
  | .hbm, ⟨8, _⟩ => ⟨S16, .f32⟩
  | .hbm, ⟨9, _⟩ => ⟨S1x64, .f32⟩
  | .hbm, ⟨10, _⟩ => ⟨S1x64, .f32⟩
  | .hbm, ⟨11, _⟩ => ⟨S1x1, .f32⟩
  | .hbm, ⟨12, _⟩ => ⟨S1x16, .f32⟩
  | .hbm, ⟨13, _⟩ => ⟨S2097152x17, .f32⟩
  | .hbm, ⟨14, _⟩ => ⟨S2097152x1, .f32⟩
  | .hbm, ⟨15, _⟩ => ⟨S2097152, .f32⟩
  | .hbm, ⟨16, _⟩ => ⟨S2097152x16, .f32⟩
  | .local _ .vmem, ⟨0, _⟩ => ⟨S4096x32, .f32⟩
  | .local _ .vmem, ⟨1, _⟩ => ⟨S4096x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S64x16, .f32⟩
  | .local _ .vmem, ⟨9, _⟩ => ⟨S1x16, .f32⟩
  | .local _ .vmem, ⟨10, _⟩ => ⟨S4096x17, .f32⟩
  | .local _ .vmem, ⟨11, _⟩ => ⟨S4096x17, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x17 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  shapeCasts_S1_S1x1 : S1.ShapeCasts S1x1
  shapeCasts_S16_S1x16 : S16.ShapeCasts S1x16
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x17_S4096x1_0_0 : ∀ a, (![0, 0] : Fin 2 → Nat) a + S4096x1.size a ≤ S4096x17.size a
  h_S4096x1 : 0 < S4096x1.numel
  inb_S4096x17_S4096x16_0_1 : ∀ a, (![0, 1] : Fin 2 → Nat) a + S4096x16.size a ≤ S4096x17.size a
  h_S4096x16 : 0 < S4096x16.numel
  slices_S2097152x17_S2097152x1_0_0 : S2097152x17.Slices ![0, 0] S2097152x1
  shapeCasts_S2097152x1_S2097152 : S2097152x1.ShapeCasts S2097152
  slices_S2097152x17_S2097152x16_0_1 : S2097152x17.Slices ![0, 1] S2097152x16
  dot_S4096x32_S32x64_S4096x64_1_0_0_1_n_n_wf : DotDims.WF S4096x32 S32x64 S4096x64 [1] [0] [0] [1] [] []
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  dot_S4096x64_S64x16_S4096x16_1_0_0_1_n_n_wf : DotDims.WF S4096x64 S64x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S2097152x32.size a
  hwx0_0 : ∀ i : grid0.Coords, EltTy.bits .f32 = 32 ∨ (Rect.block (s := S2097152x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .f32 = 32 ∨ (Rect.block (s := S64x16) S64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x17.size a ≤ S2097152x17.size a
  hwx0_9 : ∀ i : grid0.Coords, EltTy.bits .f32 = 32 ∨ (Rect.block (s := S2097152x17) S4096x17.size (cc0_transform_9 i) (hinb0_9 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S4096x17.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x16 : Shape := ⟨2, ![64, 16]⟩
abbrev S16 : Shape := ⟨1, ![16]⟩
abbrev S2097152x64 : Shape := ⟨2, ![2097152, 64]⟩
abbrev S1x64 : Shape := ⟨2, ![1, 64]⟩
abbrev S_ : Shape := ⟨0, ![]⟩
abbrev S2097152x1 : Shape := ⟨2, ![2097152, 1]⟩
abbrev S1x1 : Shape := ⟨2, ![1, 1]⟩
abbrev S2097152 : Shape := ⟨1, ![2097152]⟩
abbrev S2097152x16 : Shape := ⟨2, ![2097152, 16]⟩
abbrev S1x16 : Shape := ⟨2, ![1, 16]⟩

abbrev nBuf : Space → Nat
  | .hbm => 49
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x16, .f32⟩
  | .hbm, ⟨8, _⟩ => ⟨S16, .f32⟩
  | .hbm, ⟨9, _⟩ => ⟨S2097152x64, .f32⟩
  | .hbm, ⟨10, _⟩ => ⟨S1x64, .f32⟩
  | .hbm, ⟨11, _⟩ => ⟨S2097152x64, .f32⟩
  | .hbm, ⟨12, _⟩ => ⟨S2097152x64, .f32⟩
  | .hbm, ⟨13, _⟩ => ⟨S_, .f32⟩
  | .hbm, ⟨14, _⟩ => ⟨S2097152x64, .f32⟩
  | .hbm, ⟨15, _⟩ => ⟨S2097152x64, .f32⟩
  | .hbm, ⟨16, _⟩ => ⟨S2097152x64, .f32⟩
  | .hbm, ⟨17, _⟩ => ⟨S1x64, .f32⟩
  | .hbm, ⟨18, _⟩ => ⟨S2097152x64, .f32⟩
  | .hbm, ⟨19, _⟩ => ⟨S2097152x64, .f32⟩
  | .hbm, ⟨20, _⟩ => ⟨S_, .f32⟩
  | .hbm, ⟨21, _⟩ => ⟨S2097152x64, .f32⟩
  | .hbm, ⟨22, _⟩ => ⟨S2097152x64, .f32⟩
  | .hbm, ⟨23, _⟩ => ⟨S2097152x1, .f32⟩
  | .hbm, ⟨24, _⟩ => ⟨S1x1, .f32⟩
  | .hbm, ⟨25, _⟩ => ⟨S2097152x1, .f32⟩
  | .hbm, ⟨26, _⟩ => ⟨S2097152x1, .f32⟩
  | .hbm, ⟨27, _⟩ => ⟨S2097152, .f32⟩
  | .hbm, ⟨28, _⟩ => ⟨S_, .f32⟩
  | .hbm, ⟨29, _⟩ => ⟨S2097152, .f32⟩
  | .hbm, ⟨30, _⟩ => ⟨S2097152, .f32⟩
  | .hbm, ⟨31, _⟩ => ⟨S_, .f32⟩
  | .hbm, ⟨32, _⟩ => ⟨S2097152, .f32⟩
  | .hbm, ⟨33, _⟩ => ⟨S2097152, .f32⟩
  | .hbm, ⟨34, _⟩ => ⟨S2097152, .f32⟩
  | .hbm, ⟨35, _⟩ => ⟨S2097152, .f32⟩
  | .hbm, ⟨36, _⟩ => ⟨S2097152, .i1⟩
  | .hbm, ⟨37, _⟩ => ⟨S2097152, .f32⟩
  | .hbm, ⟨38, _⟩ => ⟨S2097152, .f32⟩
  | .hbm, ⟨39, _⟩ => ⟨S2097152, .f32⟩
  | .hbm, ⟨40, _⟩ => ⟨S2097152, .f32⟩
  | .hbm, ⟨41, _⟩ => ⟨S2097152, .f32⟩
  | .hbm, ⟨42, _⟩ => ⟨S2097152, .f32⟩
  | .hbm, ⟨43, _⟩ => ⟨S2097152, .f32⟩
  | .hbm, ⟨44, _⟩ => ⟨S2097152, .f32⟩
  | .hbm, ⟨45, _⟩ => ⟨S2097152x16, .f32⟩
  | .hbm, ⟨46, _⟩ => ⟨S1x16, .f32⟩
  | .hbm, ⟨47, _⟩ => ⟨S2097152x16, .f32⟩
  | .hbm, ⟨48, _⟩ => ⟨S2097152x16, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S2097152 : S2097152x1.ShapeCasts S2097152
  bcast_S_S2097152 : S_.BroadcastsInDim S2097152 (![] : Fin 0 → Fin S2097152.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x1_S2097152x1_1_0_0_1_n_n_wf : DotDims.WF S2097152x64 S64x1 S2097152x1 [1] [0] [0] [1] [] []
  dot_S2097152x64_S64x16_S2097152x16_1_0_0_1_n_n_wf : DotDims.WF S2097152x64 S64x16 S2097152x16 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x1_S2097152x1_1_0_0_1_n_n : DotDims S2097152x64 S64x1 S2097152x1 where
  lhsContracting := [1]
  rhsContracting := [0]
  lhsNonContracting := [0]
  rhsNonContracting := [1]
  lhsBatch := []
  rhsBatch := []
  wf := dot_S2097152x64_S64x1_S2097152x1_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf

class Facts : Prop extends Facts₀ where

variable [Facts]
-- ==== Proof.Network.lean ====
/-
  The network both programs compute, row by row, on the extended reals.

  A row `x : Fin 32 → EReal` of the feature matrix goes through two dense layers with a rectifier,
  `h₁ j = max (∑ k, x k · W0 k j + b0 j) 0` and `h₂ j = max (∑ k, h₁ k · W1 k j + b1 j) 0`, and then through two
  heads that share `h₂`: the density head `softplus ((∑ k, h₂ k · Ws k + bs) − 1)`, with
  `softplus z = max z 0 + log1p (exp (−|z|))` and `|z| = max z (−z)`, and the colour head
  `∑ k, h₂ k · Wr k j + br j`.  No law beyond the definitions is used: both programs spell exactly these sums,
  in this order of the factors and of the summands, so nothing here needs the inputs to be finite.
-/
import Idealize.ShloMosaic.PureOps.Ideal
import Idealize.ShloMosaic.Lib.ValueIdx

noncomputable section

namespace Cert.Mlp

open Idealize.ShloMosaic Idealize.ShloMosaic.ValueIdx

/-- The weights and biases, read at literal coordinates. -/
structure Params where
  W0 : Fin 32 → Fin 64 → EReal
  b0 : Fin 64 → EReal
  W1 : Fin 64 → Fin 64 → EReal
  b1 : Fin 64 → EReal
  Ws : Fin 64 → EReal
  bs : EReal
  Wr : Fin 64 → Fin 16 → EReal
  br : Fin 16 → EReal

/-- First hidden layer of one row. -/
def hidden1 (P : Params) (x : Fin 32 → EReal) (j : Fin 64) : EReal :=
  max ((∑ k : Fin 32, x k * P.W0 k j) + P.b0 j) 0

/-- Second hidden layer of one row. -/
def hidden2 (P : Params) (x : Fin 32 → EReal) (j : Fin 64) : EReal :=
  max ((∑ k : Fin 64, hidden1 P x k * P.W1 k j) + P.b1 j) 0

/-- `softplus z = max z 0 + log (1 + e^(−|z|))`, the overflow-free spelling of `log (1 + e^z)`. -/
def softplus (z : EReal) : EReal :=
  max z 0 + Ideal.log1p (Ideal.exp (-(max z (-z))))

/-- The density head of one row: the shifted softplus of a linear form of the second hidden layer. -/
def sigma (P : Params) (x : Fin 32 → EReal) : EReal :=
  softplus (((∑ k : Fin 64, hidden2 P x k * P.Ws k) + P.bs) - 1)

/-- The colour head of one row. -/
def rgb (P : Params) (x : Fin 32 → EReal) (j : Fin 16) : EReal :=
  (∑ k : Fin 64, hidden2 P x k * P.Wr k j) + P.br j

/-- The parameters as the argument arrays hold them. -/
def paramsOf (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32)
    (Ws : FVec Ideal ⟨2, ![64, 1]⟩ .f32) (bs : FVec Ideal ⟨1, ![1]⟩ .f32)
    (Wr : FVec Ideal ⟨2, ![64, 16]⟩ .f32) (br : FVec Ideal ⟨1, ![16]⟩ .f32) : Params where
  W0 k j := W0 (ix2 k j)
  b0 j := b0 (ix1 j)
  W1 k j := W1 (ix2 k j)
  b1 j := b1 (ix1 j)
  Ws k := Ws (ix2 k (0 : Fin 1))
  bs := bs (ix1 (0 : Fin 1))
  Wr k j := Wr (ix2 k j)
  br j := br (ix1 j)

/-- The parameters as the kernel's body finds them in its staging buffers: the weight matrices as they are, each
    bias as the one-row matrix the host reshaped it to. -/
def paramsOfBlock (W0 : FVec Ideal ⟨2, ![32, 64]⟩ .f32) (b0 : FVec Ideal ⟨2, ![1, 64]⟩ .f32)
    (W1 : FVec Ideal ⟨2, ![64, 64]⟩ .f32) (b1 : FVec Ideal ⟨2, ![1, 64]⟩ .f32)
    (Ws : FVec Ideal ⟨2, ![64, 1]⟩ .f32) (bs : FVec Ideal ⟨2, ![1, 1]⟩ .f32)
    (Wr : FVec Ideal ⟨2, ![64, 16]⟩ .f32) (br : FVec Ideal ⟨2, ![1, 16]⟩ .f32) : Params where
  W0 k j := W0 (ix2 k j)
  b0 j := b0 (ix2 (0 : Fin 1) j)
  W1 k j := W1 (ix2 k j)
  b1 j := b1 (ix2 (0 : Fin 1) j)
  Ws k := Ws (ix2 k (0 : Fin 1))
  bs := bs (ix2 (0 : Fin 1) (0 : Fin 1))
  Wr k j := Wr (ix2 k j)
  br j := br (ix2 (0 : Fin 1) j)

/-- Row `p` of a block of 4096 rows of the feature matrix. -/
def blockRow (x : FVec Ideal ⟨2, ![4096, 32]⟩ .f32) (p : Fin 4096) : Fin 32 → EReal :=
  fun k => x (ix2 p k)

/-- Row `r` of the feature matrix. -/
def rowOf (feat : FVec Ideal ⟨2, ![2097152, 32]⟩ .f32) (r : Fin 2097152) : Fin 32 → EReal :=
  fun k => feat (ix2 r k)

/-- The first result: the density of every row. -/
def sigmaOut (feat : FVec Ideal ⟨2, ![2097152, 32]⟩ .f32) (P : Params) : FVec Ideal ⟨1, ![2097152]⟩ .f32 :=
  fun i => sigma P (rowOf feat (i 0))

/-- The second result: the colour features of every row. -/
def rgbOut (feat : FVec Ideal ⟨2, ![2097152, 32]⟩ .f32) (P : Params) : FVec Ideal ⟨2, ![2097152, 16]⟩ .f32 :=
  fun i => rgb P (rowOf feat (i 0)) (i 1)

end Cert.Mlp

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.KernelBody.lean ====
/-
  The kernel body's two stored values, read at one entry, are the network of `Network.lean` on that row of the block.

  Each dense layer of the body is a plain matrix product into the zero splat, plus the one-row bias broadcast over the
  rows; read at row `p` and column `j` it is `∑ k, X (p, k) * W (k, j) + b (0, j)`, the sum in the order of the
  specification.  The format changes between the layers are the identity on the extended reals, the rectifier is the
  maximum with the word `0x00000000 = 0`, and the density head's shift subtracts the word `0x3F800000 = 1`.  The
  guarded softplus `select (z ≠ z) (z + 0) (max z 0 + log1p (exp (0 - |z - 0|)))` takes its second branch, since no
  extended real differs from itself, and `z - 0 = z`, `0 - a = -a`.
-/
import proofs.«128788_j2439541424397_1_alg».proof.Proof.Gen.KernelIdeal.Skeleton
import proofs.«128788_j2439541424397_1_alg».proof.Proof.Network
import proofs.«128788_j2439541424397_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.Mlp.Body

open Cert.KernelIdeal Cert.KernelIdeal.Gen
open Idealize.ShloMosaic Idealize.ShloMosaic.ValueIdx Cert.Mlp

/-- The word `0x3F800000` is the number one. -/
theorem ofBits_one_f32 : Ideal.ofBits .f32 0x3F800000#32 = 1 := IdealRules.sign_bit.ideal_onePat .f32

/-- A dense layer read at one entry: the plain product into the zero splat plus the one-row bias broadcast over the
    rows is, at row `p` and column `j`, the sum over `k` of `X (p, k) * W (k, j)`, plus `b (0, j)`. -/
theorem dense_apply {M K N : Nat} {φ₁ φ₂ : FTy} (X : FVec Ideal ⟨2, ![M, K]⟩ φ₁) (W : FVec Ideal ⟨2, ![K, N]⟩ φ₂)
    (b : FVec Ideal ⟨2, ![1, N]⟩ .f32) (hs : (⟨2, ![1, N]⟩ : Shape).ShapeCasts ⟨2, ![1, N]⟩)
    (hb : (⟨2, ![1, N]⟩ : Shape).Broadcasts ⟨2, ![M, N]⟩) (p : Fin M) (j : Fin N) :
    addf (matmul (DotDims.plain M K N) none X W (constant (F := Ideal) ⟨2, ![M, N]⟩ .f32 0x00000000#32))
        (broadcastTo ⟨2, ![M, N]⟩ (shapeCast ⟨2, ![1, N]⟩ b hs) hb) (ix2 p j)
      = (∑ k : Fin K, X (ix2 p k) * W (ix2 k j)) + b (ix2 (0 : Fin 1) j) := by
  rw [addf_apply, shapeCast_self, broadcastTo_1b_ab_apply]
  exact congrArg (· + b (ix2 (0 : Fin 1) j)) (Cert.Lib.PlainMatmul.matmul_zero_apply none X W p j)

/-- A dense layer with the rectifier, read at one entry. -/
theorem relu_dense_apply {M K N : Nat} {φ₁ φ₂ : FTy} (X : FVec Ideal ⟨2, ![M, K]⟩ φ₁) (W : FVec Ideal ⟨2, ![K, N]⟩ φ₂)
    (b : FVec Ideal ⟨2, ![1, N]⟩ .f32) (hs : (⟨2, ![1, N]⟩ : Shape).ShapeCasts ⟨2, ![1, N]⟩)
    (hb : (⟨2, ![1, N]⟩ : Shape).Broadcasts ⟨2, ![M, N]⟩) (p : Fin M) (j : Fin N) :
    maximumf (addf (matmul (DotDims.plain M K N) none X W (constant (F := Ideal) ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 p j)
      = max ((∑ k : Fin K, X (ix2 p k) * W (ix2 k j)) + b (ix2 (0 : Fin 1) j)) 0 := by
  rw [maximumf_apply, broadcast_apply, dense_apply]
  exact congrArg (max _) Ideal.ofBits_zero_f32

/-- The first hidden layer as the body spells it, before the format change: a vector of 4096 rows of 64. -/
def layer1 (x0 : Vec Ideal S4096x32 .f32) (x1 : Vec Ideal S32x64 .f32) (x2 : Vec Ideal S1x64 .f32) :
    FVec Ideal S4096x64 .f32 :=
  maximumf (addf (matmul dot_S4096x32_S32x64_S4096x64_1_0_0_1_n_n none (truncf .bf16 x0 bitsLt_bf16_f32)
      (truncf .bf16 x1 bitsLt_bf16_f32) (constant S4096x64 .f32 0x00000000#32))
      (broadcastTo S4096x64 (shapeCast S1x64 x2 shapeCasts_S1x64_S1x64) broadcasts_S1x64_S4096x64))
    (broadcast S4096x64 (Scalar.ofBits .f32 0x00000000#32))

/-- The second hidden layer is the same spelling over the first. -/
theorem pay3_eq (x0 : Vec Ideal S4096x32 .f32) (x1 : Vec Ideal S32x64 .f32) (x2 : Vec Ideal S1x64 .f32)
    (x3 : Vec Ideal S64x64 .f32) (x4 : Vec Ideal S1x64 .f32) :
    k0_pay3 (F := Ideal) x0 x1 x2 x3 x4
      = truncf .bf16 (maximumf (addf (matmul dot_S4096x64_S64x64_S4096x64_1_0_0_1_n_n none
          (truncf .bf16 (layer1 x0 x1 x2) bitsLt_bf16_f32) (truncf .bf16 x3 bitsLt_bf16_f32)
          (constant S4096x64 .f32 0x00000000#32))
          (broadcastTo S4096x64 (shapeCast S1x64 x4 shapeCasts_S1x64_S1x64) broadcasts_S1x64_S4096x64))
        (broadcast S4096x64 (Scalar.ofBits .f32 0x00000000#32))) bitsLt_bf16_f32 := rfl

/-- The first hidden layer at row `p`, column `j`. -/
theorem layer1_apply (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (p : Fin 4096) (j : Fin 64) :
    layer1 x0 x1 x2 (ix2 p j) = hidden1 (paramsOfBlock x1 x2 x3 x4 x5 x6 x7 x8) (blockRow x0 p) j :=
  relu_dense_apply (M := 4096) (K := 32) (N := 64) (φ₁ := .bf16) (φ₂ := .bf16) x0 x1 x2 shapeCasts_S1x64_S1x64
    broadcasts_S1x64_S4096x64 p j

/-- The second hidden layer at row `p`, column `j`. -/
theorem pay3_apply (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (p : Fin 4096) (j : Fin 64) :
    k0_pay3 (F := Ideal) x0 x1 x2 x3 x4 (ix2 p j)
      = hidden2 (paramsOfBlock x1 x2 x3 x4 x5 x6 x7 x8) (blockRow x0 p) j := by
  rw [pay3_eq, truncf_apply]
  refine (relu_dense_apply (M := 4096) (K := 64) (N := 64) (φ₁ := .bf16) (φ₂ := .bf16) (layer1 x0 x1 x2) x3 x4
    shapeCasts_S1x64_S1x64 broadcasts_S1x64_S4096x64 p j).trans ?_
  unfold hidden2
  refine congrArg (fun s => max (s + x4 (ix2 (0 : Fin 1) j)) 0) (Finset.sum_congr rfl fun k _ => ?_)
  exact congrArg (· * x3 (ix2 k j)) (layer1_apply x0 x1 x2 x3 x4 x5 x6 x7 x8 p k)

/-- The density head's linear form minus one, at row `p`. -/
theorem pay4_apply (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (p : Fin 4096) :
    k0_pay4 (F := Ideal) x0 x1 x2 x3 x4 x5 x6 (ix2 p (0 : Fin 1))
      = ((∑ k : Fin 64, hidden2 (paramsOfBlock x1 x2 x3 x4 x5 x6 x7 x8) (blockRow x0 p) k * x5 (ix2 k (0 : Fin 1)))
          + x6 (ix2 (0 : Fin 1) (0 : Fin 1))) - 1 := by
  unfold k0_pay4
  rw [subf_apply, broadcast_apply]
  refine congrArg₂ (· - ·) ?_ ofBits_one_f32
  refine (dense_apply (M := 4096) (K := 64) (N := 1) (φ₁ := .bf16) (φ₂ := .bf16) (k0_pay3 x0 x1 x2 x3 x4) x5 x6
    shapeCasts_S1x1_S1x1 broadcasts_S1x1_S4096x1 p (0 : Fin 1)).trans ?_
  refine congrArg (· + x6 (ix2 (0 : Fin 1) (0 : Fin 1))) (Finset.sum_congr rfl fun k _ => ?_)
  exact congrArg (· * x5 (ix2 k (0 : Fin 1))) (pay3_apply x0 x1 x2 x3 x4 x5 x6 x7 x8 p k)

/-- The guarded softplus of the body at one entry is the softplus of the specification: the guard `z ≠ z` is false. -/
theorem guarded_softplus (z : EReal) :
    Scalar.select (Ideal.cmp .one (z - 0) (z - 0)) (z + 0)
        (max z 0 + Ideal.log1p (Ideal.exp (0 - max (z - 0) (-(z - 0))))) = softplus z := by
  have hc : Ideal.cmp .one (z - 0) (z - 0) = 0#1 := by simp [Ideal.cmp]
  rw [hc, select_zero, sub_zero, zero_sub]
  rfl

/-- The value stored into column 0 of the output block, at row `p`: the density of the block's row `p`. -/
theorem pay_sigma (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (p : Fin 4096) :
    k0_pay1 (F := Ideal) (k0_pay5 x0 x1 x2 x3 x4 x5 x6) (k0_pay6 x0 x1 x2 x3 x4 x5 x6) (k0_pay7 x0 x1 x2 x3 x4 x5 x6)
        (k0_pay8 x0 x1 x2 x3 x4 x5 x6) (ix2 p (0 : Fin 1))
      = sigma (paramsOfBlock x1 x2 x3 x4 x5 x6 x7 x8) (blockRow x0 p) := by
  have h0 : Scalar.ofBits (F := Ideal) .f32 0x00000000#32 = (0 : EReal) := Ideal.ofBits_zero_f32
  have e : k0_pay1 (F := Ideal) (k0_pay5 x0 x1 x2 x3 x4 x5 x6) (k0_pay6 x0 x1 x2 x3 x4 x5 x6)
        (k0_pay7 x0 x1 x2 x3 x4 x5 x6) (k0_pay8 x0 x1 x2 x3 x4 x5 x6) (ix2 p (0 : Fin 1))
      = Scalar.select (Ideal.cmp .one
            (k0_pay4 (F := Ideal) x0 x1 x2 x3 x4 x5 x6 (ix2 p (0 : Fin 1)) - Scalar.ofBits (F := Ideal) .f32 0x00000000#32)
            (k0_pay4 (F := Ideal) x0 x1 x2 x3 x4 x5 x6 (ix2 p (0 : Fin 1)) - Scalar.ofBits (F := Ideal) .f32 0x00000000#32))
          (k0_pay4 (F := Ideal) x0 x1 x2 x3 x4 x5 x6 (ix2 p (0 : Fin 1)) + Scalar.ofBits (F := Ideal) .f32 0x00000000#32)
          (max (k0_pay4 (F := Ideal) x0 x1 x2 x3 x4 x5 x6 (ix2 p (0 : Fin 1))) (Scalar.ofBits (F := Ideal) .f32 0x00000000#32)
            + Ideal.log1p (Ideal.exp (Scalar.ofBits (F := Ideal) .f32 0x00000000#32
                - max (k0_pay4 (F := Ideal) x0 x1 x2 x3 x4 x5 x6 (ix2 p (0 : Fin 1)) - Scalar.ofBits (F := Ideal) .f32 0x00000000#32)
                    (-(k0_pay4 (F := Ideal) x0 x1 x2 x3 x4 x5 x6 (ix2 p (0 : Fin 1)) - Scalar.ofBits (F := Ideal) .f32 0x00000000#32))))) := rfl
  rw [e, h0, guarded_softplus, pay4_apply x0 x1 x2 x3 x4 x5 x6 x7 x8 p]
  rfl

/-- The value stored into columns 1 to 16 of the output block, at row `p` and column `j` of the piece: the colour
    feature `j` of the block's row `p`. -/
theorem pay_rgb (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (p : Fin 4096) (j : Fin 16) :
    k0_pay2 (F := Ideal) (k0_pay3 x0 x1 x2 x3 x4) x7 x8 (ix2 p j)
      = rgb (paramsOfBlock x1 x2 x3 x4 x5 x6 x7 x8) (blockRow x0 p) j := by
  unfold k0_pay2
  refine (dense_apply (M := 4096) (K := 64) (N := 16) (φ₁ := .bf16) (φ₂ := .bf16) (k0_pay3 x0 x1 x2 x3 x4) x7 x8
    shapeCasts_S1x16_S1x16 broadcasts_S1x16_S4096x16 p j).trans ?_
  unfold rgb
  refine congrArg (· + x8 (ix2 (0 : Fin 1) j)) (Finset.sum_congr rfl fun k _ => ?_)
  exact congrArg (· * x7 (ix2 k j)) (pay3_apply x0 x1 x2 x3 x4 x5 x6 x7 x8 p k)

end Cert.Mlp.Body

end
-- ==== Proof.Packed.lean ====
/-
  The kernel's one output array packs both results: of each row, column 0 holds the density and columns 1 to 16
  the sixteen colour features.  This module names that packing for any number of rows and reads it at an index
  from the index's two coordinates: the block a grid point writes and the whole array are the same packing of the
  same per-row functions, over 4096 and over 2097152 rows.
-/
import proofs.«128788_j2439541424397_1_alg».proof.Proof.Network

noncomputable section

namespace Cert.Mlp

open Idealize.ShloMosaic Idealize.ShloMosaic.ValueIdx

/-- One packed row: `s` in column 0, `g j` in column `j + 1`. -/
def packed (s : EReal) (g : Fin 16 → EReal) (q : Fin 17) : EReal :=
  if h : q.val = 0 then s else g ⟨q.val - 1, by have := q.isLt; omega⟩

theorem packed_zero (s : EReal) (g : Fin 16 → EReal) (q : Fin 17) (h : q.val = 0) : packed s g q = s := by
  unfold packed; rw [dif_pos h]

theorem packed_succ (s : EReal) (g : Fin 16 → EReal) (q : Fin 17) (j : Fin 16) (h : q.val = j.val + 1) :
    packed s g q = g j := by
  unfold packed
  rw [dif_neg (by omega)]
  exact congrArg g (Fin.ext (by show q.val - 1 = j.val; omega))

/-- `R` packed rows, as an `R × 17` array: row `r` packs `s r` and `g r`. -/
def packedRows {R : Nat} (s : Fin R → EReal) (g : Fin R → Fin 16 → EReal) : FVec Ideal ⟨2, ![R, 17]⟩ .f32 :=
  fun y => packed (s ⟨(y 0).val, (y 0).isLt⟩) (g ⟨(y 0).val, (y 0).isLt⟩) ⟨(y 1).val, (y 1).isLt⟩

/-- Column 0 of row `p`. -/
theorem packedRows_zero {R : Nat} (s : Fin R → EReal) (g : Fin R → Fin 16 → EReal) (y : (⟨2, ![R, 17]⟩ : Shape).Idx)
    (p : Fin R) (h0 : (y 0).val = p.val) (h1 : (y 1).val = 0) : packedRows s g y = s p := by
  exact (packed_zero _ _ ⟨(y 1).val, (y 1).isLt⟩ h1).trans (congrArg s (Fin.ext h0))

/-- Column `j + 1` of row `p`. -/
theorem packedRows_succ {R : Nat} (s : Fin R → EReal) (g : Fin R → Fin 16 → EReal) (y : (⟨2, ![R, 17]⟩ : Shape).Idx)
    (p : Fin R) (j : Fin 16) (h0 : (y 0).val = p.val) (h1 : (y 1).val = j.val + 1) : packedRows s g y = g p j := by
  exact (packed_succ _ _ ⟨(y 1).val, (y 1).isLt⟩ j h1).trans (congrFun (congrArg g (Fin.ext h0)) j)

/-- Two packings agree at two indices of the same column whose rows carry the same values. -/
theorem packedRows_congr {R R' : Nat} (s : Fin R → EReal) (g : Fin R → Fin 16 → EReal) (s' : Fin R' → EReal)
    (g' : Fin R' → Fin 16 → EReal) (y : (⟨2, ![R, 17]⟩ : Shape).Idx) (y' : (⟨2, ![R', 17]⟩ : Shape).Idx)
    (p : Fin R) (p' : Fin R') (h0 : (y 0).val = p.val) (h0' : (y' 0).val = p'.val) (h1 : (y 1).val = (y' 1).val)
    (hs : s p = s' p') (hg : g p = g' p') : packedRows s g y = packedRows s' g' y' := by
  have e : (⟨(y 0).val, (y 0).isLt⟩ : Fin R) = p := Fin.ext h0
  have e' : (⟨(y' 0).val, (y' 0).isLt⟩ : Fin R') = p' := Fin.ext h0'
  have eq : (⟨(y 1).val, (y 1).isLt⟩ : Fin 17) = ⟨(y' 1).val, (y' 1).isLt⟩ := Fin.ext h1
  show packed (s ⟨(y 0).val, (y 0).isLt⟩) (g ⟨(y 0).val, (y 0).isLt⟩) ⟨(y 1).val, (y 1).isLt⟩
    = packed (s' ⟨(y' 0).val, (y' 0).isLt⟩) (g' ⟨(y' 0).val, (y' 0).isLt⟩) ⟨(y' 1).val, (y' 1).isLt⟩
  rw [e, e', eq, hs, hg]

/-- The block a grid point writes: the packing of the network over the 4096 rows of its block of features. -/
def blockOut (P : Params) (x : FVec Ideal ⟨2, ![4096, 32]⟩ .f32) : FVec Ideal ⟨2, ![4096, 17]⟩ .f32 :=
  packedRows (fun p => sigma P (blockRow x p)) (fun p => rgb P (blockRow x p))

/-- The whole packed array: the packing of the network over all rows of the feature matrix. -/
def packedOut (P : Params) (feat : FVec Ideal ⟨2, ![2097152, 32]⟩ .f32) : FVec Ideal ⟨2, ![2097152, 17]⟩ .f32 :=
  packedRows (fun r => sigma P (rowOf feat r)) (fun r => rgb P (rowOf feat r))

end Cert.Mlp

end
-- ==== Proof.KernelBlock.lean ====
/-
  What one grid point leaves in the output's staging buffer.

  The body stores twice into the 4096 × 17 buffer: the density into column 0 and the sixteen colour features into
  columns 1 to 16.  The two rectangles tile the buffer, and each stored value, read at a row and a column of its own
  rectangle, is the network's value for that row of the block of features (`KernelBody.lean`); so the buffer ends
  holding the packing of the network over the block's 4096 rows, whatever it held before.
-/
import proofs.«128788_j2439541424397_1_alg».proof.Proof.Gen.KernelIdeal.Frame
import proofs.«128788_j2439541424397_1_alg».proof.Proof.KernelBody
import proofs.«128788_j2439541424397_1_alg».proof.Proof.Packed
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem

namespace Cert.Mlp.Kernel

open Cert.KernelIdeal Cert.KernelIdeal.Gen Idealize.ShloMosaic.ValueIdx Cert.Mlp

theorem zero_offsets : (![0, 0] : Fin 2 → Nat) = fun _ => 0 := funext fun a => by fin_cases a <;> rfl

/-- The colour features' store, at row `p` and column `j` of its rectangle (row `p`, column `j + 1` of the buffer),
    is the packed network there. -/
theorem rgb_piece (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (x : S4096x16.Idx) :
    k0_pay2 (F := Ideal) (k0_pay3 x0 x1 x2 x3 x4) x7 x8 x
      = blockOut (paramsOfBlock x1 x2 x3 x4 x5 x6 x7 x8) x0
          ((Rect.unit (s := S4096x17) ![0, 1] ![4096, 16] inb_S4096x17_S4096x16_0_1).emb x) := by
  obtain ⟨p, j, rfl⟩ : ∃ (p : Fin 4096) (j : Fin 16), x = ix2 p j := ⟨x 0, x 1, eq_ix2 x⟩
  rw [Body.pay_rgb x0 x1 x2 x3 x4 x5 x6 x7 x8 p j]
  exact (packedRows_succ (fun p => sigma (paramsOfBlock x1 x2 x3 x4 x5 x6 x7 x8) (blockRow x0 p))
    (fun p => rgb (paramsOfBlock x1 x2 x3 x4 x5 x6 x7 x8) (blockRow x0 p)) ((Rect.unit (s := S4096x17) ![0, 1] ![4096, 16] inb_S4096x17_S4096x16_0_1).emb (ix2 p j)) p j
    (by show 0 + 1 * p.val = p.val; omega) (by show 1 + 1 * j.val = j.val + 1; omega)).symm

/-- The density's store, at row `p` of its one-column rectangle (row `p`, column 0 of the buffer), is the packed
    network there. -/
theorem sigma_piece (x0 : Vec Ideal S4096x32 .f32) (x1 : Vec Ideal S32x64 .f32) (x2 : Vec Ideal S1x64 .f32)
    (x3 : Vec Ideal S64x64 .f32) (x4 : Vec Ideal S1x64 .f32) (x5 : Vec Ideal S64x1 .f32) (x6 : Vec Ideal S1x1 .f32)
    (x7 : Vec Ideal S64x16 .f32) (x8 : Vec Ideal S1x16 .f32) (x : S4096x1.Idx) :
    k0_pay1 (F := Ideal) (k0_pay5 x0 x1 x2 x3 x4 x5 x6) (k0_pay6 x0 x1 x2 x3 x4 x5 x6) (k0_pay7 x0 x1 x2 x3 x4 x5 x6)
        (k0_pay8 x0 x1 x2 x3 x4 x5 x6) x
      = blockOut (paramsOfBlock x1 x2 x3 x4 x5 x6 x7 x8) x0
          ((Rect.unit (s := S4096x17) ![0, 0] ![4096, 1] inb_S4096x17_S4096x1_0_0).emb x) := by
  obtain ⟨p, q, rfl⟩ : ∃ (p : Fin 4096) (q : Fin 1), x = ix2 p q := ⟨x 0, x 1, eq_ix2 x⟩
  obtain rfl : q = 0 := Subsingleton.elim _ _
  rw [Body.pay_sigma x0 x1 x2 x3 x4 x5 x6 x7 x8 p]
  exact (packedRows_zero (fun p => sigma (paramsOfBlock x1 x2 x3 x4 x5 x6 x7 x8) (blockRow x0 p))
    (fun p => rgb (paramsOfBlock x1 x2 x3 x4 x5 x6 x7 x8) (blockRow x0 p)) ((Rect.unit (s := S4096x17) ![0, 0] ![4096, 1] inb_S4096x17_S4096x1_0_0).emb (ix2 p (0 : Fin 1))) p
    (by show 0 + 1 * p.val = p.val; omega) (by show 0 + 1 * 0 = 0; omega)).symm

/-- The staging buffer after the body, as a function of the blocks the body loads: the packed network of the block. -/
theorem block_eq (c : Dev nD) (i : grid0.Coords) (a1 : Memref sig .tc .vmem S4096x32 .f32) (h1 : a1.IsWhole) (a2 : Memref sig .tc .vmem S32x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S64x1 .f32) (h6 : a6.IsWhole) (a7 : Memref sig .tc .vmem S1x1 .f32) (h7 : a7.IsWhole) (a8 : Memref sig .tc .vmem S64x16 .f32) (h8 : a8.IsWhole) (a9 : Memref sig .tc .vmem S1x16 .f32) (h9 : a9.IsWhole) (a10 : Memref sig .tc .vmem S4096x17 .f32) (h10 : a10.IsWhole)
    (x0 : Vec Ideal S4096x32 .f32) (x1 : Vec Ideal S32x64 .f32) (x2 : Vec Ideal S1x64 .f32) (x3 : Vec Ideal S64x64 .f32) (x4 : Vec Ideal S1x64 .f32) (x5 : Vec Ideal S64x1 .f32) (x6 : Vec Ideal S1x1 .f32) (x7 : Vec Ideal S64x16 .f32) (x8 : Vec Ideal S1x16 .f32) :
    out0_A_9 (F := Ideal) c i a1 h1 a2 h2 a3 h3 a4 h4 a5 h5 a6 h6 a7 h7 a8 h8 a9 h9 a10 h10 x0 x1 x2 x3 x4 x5 x6 x7 x8
      = blockOut (paramsOfBlock x1 x2 x3 x4 x5 x6 x7 x8) x0 := by
  unfold out0_A_9
  rw [View.read_writes_junk_eq_canon]
  funext y
  refine View.canon_apply_of_pieces (blockOut (paramsOfBlock x1 x2 x3 x4 x5 x6 x7 x8) x0) _ ?_ y
    (cover0_A_9 c i a1 h1 a2 h2 a3 h3 a4 h4 a5 h5 a6 h6 a7 h7 a8 h8 a9 h9 a10 h10 x0 x1 x2 x3 x4 x5 x6 x7 x8 y)
  unfold kernelRun0_A
  dsimp only
  sl_unfold_words
  intro pc hpc
  simp only [List.mem_cons, List.not_mem_nil, or_false] at hpc
  rcases hpc with rfl | rfl
  · intro x
    simp only [View.readAt_eq_ld, h1.read_unread, h2.read_unread, h3.read_unread, h4.read_unread, h5.read_unread,
      h8.read_unread, h9.read_unread, View.ld_unit_zero (S := S4096x32) zero_offsets,
      View.ld_unit_zero (S := S32x64) zero_offsets, View.ld_unit_zero (S := S1x64) zero_offsets,
      View.ld_unit_zero (S := S64x64) zero_offsets, View.ld_unit_zero (S := S64x16) zero_offsets,
      View.ld_unit_zero (S := S1x16) zero_offsets]
    exact rgb_piece x0 x1 x2 x3 x4 x5 x6 x7 x8 x
  · intro x
    simp only [View.readAt_eq_ld, h1.read_unread, h2.read_unread, h3.read_unread, h4.read_unread, h5.read_unread,
      h6.read_unread, h7.read_unread, View.ld_unit_zero (S := S4096x32) zero_offsets,
      View.ld_unit_zero (S := S32x64) zero_offsets, View.ld_unit_zero (S := S1x64) zero_offsets,
      View.ld_unit_zero (S := S64x64) zero_offsets, View.ld_unit_zero (S := S64x1) zero_offsets,
      View.ld_unit_zero (S := S1x1) zero_offsets]
    exact sigma_piece x0 x1 x2 x3 x4 x5 x6 x7 x8 x

end Cert.Mlp.Kernel

end
-- ==== Proof.KernelWindows.lean ====
/-
  What the body finds in its input buffers at a grid point, as parts of the argument arrays.

  The grid has 512 points.  At point `t` the feature window holds rows `4096 t` to `4096 t + 4095` of the feature
  matrix; every other input window holds its whole array at every point: the four weight matrices as the arguments
  give them, the four biases as the one-row matrices the host reshaped them to before the launch (a reshape of a
  vector of length `n` to `1 × n` keeps the order of the elements).  So the parameters the body reads are the
  arguments' parameters, and row `p` of the block of features is row `4096 t + p` of the feature matrix.
-/
import proofs.«128788_j2439541424397_1_alg».proof.Proof.Gen.KernelIdeal.Frame
import proofs.«128788_j2439541424397_1_alg».proof.Proof.Packed
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.Mlp.Kernel

open Cert.KernelIdeal Cert.KernelIdeal.Gen Idealize.ShloMosaic.ValueIdx Cert.Mlp

variable (m : (ℓ : Loc nD τ sig) → Buf (Elt Ideal) ℓ)

/-! ## The index maps, decided over the grid -/

/-- The feature window's block index is the grid point, -/
theorem idx0 : ∀ t : Fin cfg0.N, win0_0.index t (0 : Fin 2) = t.val ∧ win0_0.index t (1 : Fin 2) = 0 :=
  (by decide +kernel : ∀ t : Fin grid0.N, _)
/-- the output window's likewise, -/
theorem idx9 : ∀ t : Fin cfg0.N, win0_9.index t (0 : Fin 2) = t.val ∧ win0_9.index t (1 : Fin 2) = 0 :=
  (by decide +kernel : ∀ t : Fin grid0.N, _)
/-- and every parameter window stays at block (0, 0). -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## The parameter windows are whole arrays -/

/-- Window 1 is its whole array at every point. -/
theorem blk1 (c : Dev nD) (t : Fin cfg0.N) (y : S32x64.Idx) :
    (iblk m c 1 t : Vec Ideal S32x64 .f32) y = V m c main_arg1 y := by
  obtain ⟨e0, e1⟩ := idx1 t
  unfold iblk
  rw [View.read_apply]
  show V m c main_arg1 _ = V m c main_arg1 _
  congr 1
  funext ax; apply Fin.ext
  match ax with
  | ⟨0, _⟩ => show win0_1.index t (0 : Fin 2) * 32 + 1 * (y 0).val = (y 0).val; rw [e0]; omega
  | ⟨1, _⟩ => show win0_1.index t (1 : Fin 2) * 64 + 1 * (y 1).val = (y 1).val; rw [e1]; omega

/-- Window 2 is its whole array at every point. -/
theorem blk2 (c : Dev nD) (t : Fin cfg0.N) (y : S1x64.Idx) :
    (iblk m c 2 t : Vec Ideal S1x64 .f32) y = V m c main_v0 y := by
  obtain ⟨e0, e1⟩ := idx2 t
  unfold iblk
  rw [View.read_apply]
  show V m c main_v0 _ = V m c main_v0 _
  congr 1
  funext ax; apply Fin.ext
  match ax with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- Window 3 is its whole array at every point. -/
theorem blk3 (c : Dev nD) (t : Fin cfg0.N) (y : S64x64.Idx) :
    (iblk m c 3 t : Vec Ideal S64x64 .f32) y = V m c main_arg3 y := by
  obtain ⟨e0, e1⟩ := idx3 t
  unfold iblk
  rw [View.read_apply]
  show V m c main_arg3 _ = V m c main_arg3 _
  congr 1
  funext ax; apply Fin.ext
  match ax with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Window 4 is its whole array at every point. -/
theorem blk4 (c : Dev nD) (t : Fin cfg0.N) (y : S1x64.Idx) :
    (iblk m c 4 t : Vec Ideal S1x64 .f32) y = V m c main_v1 y := by
  obtain ⟨e0, e1⟩ := idx4 t
  unfold iblk
  rw [View.read_apply]
  show V m c main_v1 _ = V m c main_v1 _
  congr 1
  funext ax; apply Fin.ext
  match ax with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Window 5 is its whole array at every point. -/
theorem blk5 (c : Dev nD) (t : Fin cfg0.N) (y : S64x1.Idx) :
    (iblk m c 5 t : Vec Ideal S64x1 .f32) y = V m c main_arg5 y := by
  obtain ⟨e0, e1⟩ := idx5 t
  unfold iblk
  rw [View.read_apply]
  show V m c main_arg5 _ = V m c main_arg5 _
  congr 1
  funext ax; apply Fin.ext
  match ax with
  | ⟨0, _⟩ => show win0_5.index t (0 : Fin 2) * 64 + 1 * (y 0).val = (y 0).val; rw [e0]; omega
  | ⟨1, _⟩ => show win0_5.index t (1 : Fin 2) * 1 + 1 * (y 1).val = (y 1).val; rw [e1]; omega

/-- Window 6 is its whole array at every point. -/
theorem blk6 (c : Dev nD) (t : Fin cfg0.N) (y : S1x1.Idx) :
    (iblk m c 6 t : Vec Ideal S1x1 .f32) y = V m c main_v2 y := by
  obtain ⟨e0, e1⟩ := idx6 t
  unfold iblk
  rw [View.read_apply]
  show V m c main_v2 _ = V m c main_v2 _
  congr 1
  funext ax; apply Fin.ext
  match ax with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-- Window 7 is its whole array at every point. -/
theorem blk7 (c : Dev nD) (t : Fin cfg0.N) (y : S64x16.Idx) :
    (iblk m c 7 t : Vec Ideal S64x16 .f32) y = V m c main_arg7 y := by
  obtain ⟨e0, e1⟩ := idx7 t
  unfold iblk
  rw [View.read_apply]
  show V m c main_arg7 _ = V m c main_arg7 _
  congr 1
  funext ax; apply Fin.ext
  match ax with
  | ⟨0, _⟩ => show win0_7.index t (0 : Fin 2) * 64 + 1 * (y 0).val = (y 0).val; rw [e0]; omega
  | ⟨1, _⟩ => show win0_7.index t (1 : Fin 2) * 16 + 1 * (y 1).val = (y 1).val; rw [e1]; omega

/-- Window 8 is its whole array at every point. -/
theorem blk8 (c : Dev nD) (t : Fin cfg0.N) (y : S1x16.Idx) :
    (iblk m c 8 t : Vec Ideal S1x16 .f32) y = V m c main_v3 y := by
  obtain ⟨e0, e1⟩ := idx8 t
  unfold iblk
  rw [View.read_apply]
  show V m c main_v3 _ = V m c main_v3 _
  congr 1
  funext ax; apply Fin.ext
  match ax with
  | ⟨0, _⟩ => show win0_8.index t (0 : Fin 2) * 1 + 1 * (y 0).val = (y 0).val; rw [e0]; omega
  | ⟨1, _⟩ => show win0_8.index t (1 : Fin 2) * 16 + 1 * (y 1).val = (y 1).val; rw [e1]; omega

/-! ## The biases as the host reshaped them before the launch -/

theorem v0_eq (c : Dev nD) : (V m c main_v0 : Vec Ideal S1x64 .f32)
    = shapeCast S1x64 (m ((c : Thread nD τ).loc main_arg2)) shapeCasts_S64_S1x64 := by
  show StableHlo.after hostOps0 (fun b => m (c, b)) (Proc.devRef .tc main_v0) = _
  after_results
  rfl

theorem v1_eq (c : Dev nD) : (V m c main_v1 : Vec Ideal S1x64 .f32)
    = shapeCast S1x64 (m ((c : Thread nD τ).loc main_arg4)) shapeCasts_S64_S1x64 := by
  show StableHlo.after hostOps0 (fun b => m (c, b)) (Proc.devRef .tc main_v1) = _
  after_results
  rfl

theorem v2_eq (c : Dev nD) : (V m c main_v2 : Vec Ideal S1x1 .f32)
    = shapeCast S1x1 (m ((c : Thread nD τ).loc main_arg6)) shapeCasts_S1_S1x1 := by
  show StableHlo.after hostOps0 (fun b => m (c, b)) (Proc.devRef .tc main_v2) = _
  after_results
  rfl

theorem v3_eq (c : Dev nD) : (V m c main_v3 : Vec Ideal S1x16 .f32)
    = shapeCast S1x16 (m ((c : Thread nD τ).loc main_arg8)) shapeCasts_S16_S1x16 := by
  show StableHlo.after hostOps0 (fun b => m (c, b)) (Proc.devRef .tc main_v3) = _
  after_results
  rfl

/-! ## The parameters the body reads are the arguments' -/

/-- The network's parameters as the argument arrays hold them. -/
abbrev argParams (c : Dev nD) : Params :=
  paramsOf (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))

theorem params_eq (c : Dev nD) (t : Fin cfg0.N) :
    paramsOfBlock (iblk m c 1 t) (iblk m c 2 t) (iblk m c 3 t) (iblk m c 4 t) (iblk m c 5 t) (iblk m c 6 t)
      (iblk m c 7 t) (iblk m c 8 t) = argParams m c := by
  unfold paramsOfBlock argParams paramsOf
  congr 1
  · funext k j; exact (blk1 m c t (ix2 k j)).trans (congrFun (V_main_arg1 m c) _)
  · funext j
    refine (blk2 m c t (ix2 (0 : Fin 1) j)).trans ?_
    rw [v0_eq]
    exact shapeCast_a_1a_apply _ _ (0 : Fin 1) j
  · funext k j; exact (blk3 m c t (ix2 k j)).trans (congrFun (V_main_arg3 m c) _)
  · funext j
    refine (blk4 m c t (ix2 (0 : Fin 1) j)).trans ?_
    rw [v1_eq]
    exact shapeCast_a_1a_apply _ _ (0 : Fin 1) j
  · funext k; exact (blk5 m c t (ix2 k (0 : Fin 1))).trans (congrFun (V_main_arg5 m c) _)
  · refine (blk6 m c t (ix2 (0 : Fin 1) (0 : Fin 1))).trans ?_
    rw [v2_eq]
    exact shapeCast_a_1a_apply _ _ (0 : Fin 1) (0 : Fin 1)
  · funext k j; exact (blk7 m c t (ix2 k j)).trans (congrFun (V_main_arg7 m c) _)
  · funext j
    refine (blk8 m c t (ix2 (0 : Fin 1) j)).trans ?_
    rw [v3_eq]
    exact shapeCast_a_1a_apply _ _ (0 : Fin 1) j

/-! ## The block of features -/

/-- Row `p` of the block at point `t` is row `4096 t + p` of the feature matrix. -/
theorem row_eq (c : Dev nD) (t : Fin cfg0.N) (p : Fin 4096) (r : Fin 2097152) (hr : r.val = 4096 * t.val + p.val) :
    blockRow (iblk m c 0 t) p = rowOf (m ((c : Thread nD τ).loc main_arg0)) r := by
  obtain ⟨e0, e1⟩ := idx0 t
  funext k
  show (iblk m c 0 t : Vec Ideal S4096x32 .f32) (ix2 p k) = m ((c : Thread nD τ).loc main_arg0) (ix2 r k)
  unfold iblk
  rw [View.read_apply]
  show V m c main_arg0 _ = m (c.tc.loc main_arg0) _
  rw [V_main_arg0]
  congr 1
  funext ax; apply Fin.ext
  match ax with
  | ⟨0, _⟩ => show win0_0.index t (0 : Fin 2) * 4096 + 1 * p.val = r.val; rw [e0, hr]; omega
  | ⟨1, _⟩ => show win0_0.index t (1 : Fin 2) * 32 + 1 * k.val = k.val; rw [e1]; omega

end Cert.Mlp.Kernel

end
-- ==== Proof.KernelArray.lean ====
/-
  The kernel's run, read: what its two results hold after the launch and the three host operations that follow it.

  Grid point `t` writes back, to rows `4096 t` to `4096 t + 4095` of the packed 2097152 × 17 array, the packed network
  of its block of features (`KernelBlock.lean`), which is the packed network of those rows of the feature matrix
  (`KernelWindows.lean`).  The 512 blocks tile the array (row `r` lies in block `r / 4096`), so after the launch the
  array holds the packed network of every row.  The host then slices column 0 and reshapes it to a vector, the
  density of every row, and slices columns 1 to 16, the colour features of every row.
-/
import proofs.«128788_j2439541424397_1_alg».proof.Proof.Gen.KernelIdeal.Frame
import proofs.«128788_j2439541424397_1_alg».proof.Proof.KernelBlock
import proofs.«128788_j2439541424397_1_alg».proof.Proof.KernelWindows
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.Mlp.Kernel

open Cert.KernelIdeal Cert.KernelIdeal.Gen Idealize.ShloMosaic.ValueIdx Cert.Mlp

variable (m : (ℓ : Loc nD τ sig) → Buf (Elt Ideal) ℓ) (ρ : Dev nD → PrngReg)

/-- The packed array the launch leaves: the packed network of every row of the feature matrix. -/
abbrev packedArr (c : Dev nD) : Buf (Elt Ideal) ((c : Thread nD τ).loc main_v4) :=
  packedOut (argParams m c) (m ((c : Thread nD τ).loc main_arg0))

/-- What grid point `t` writes back is block `t` of the packed array. -/
theorem flushed_eq (c : Dev nD) (t : Fin cfg0.N) (hf : (cfg0.win 9).flush t = true) :
    (dats m 0 c).flushed 9 t = ((cfg0.win 9).blk t).view.read (Elt Ideal) (packedArr m c) := by
  obtain ⟨e0, e1⟩ := idx9 t
  have hN : cfg0.N = 512 := N_0
  show (cfg0.win 9).cut (grid0.coords t) ((dats m 0 c).after 9 t) = _
  rw [after0_9]
  unfold outsAt0
  refine (congrArg ((cfg0.win 9).cut (grid0.coords t))
    (block_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t))).trans ?_
  rw [params_eq m c t]
  funext y
  rw [View.read_apply]
  have hy0 : (y 0).val < 4096 := (y 0).isLt
  have ht : t.val < 512 := hN ▸ t.isLt
  show packedRows (fun p => sigma (argParams m c) (blockRow (iblk m c 0 t) p))
      (fun p => rgb (argParams m c) (blockRow (iblk m c 0 t) p)) ((cfg0.win 9).xinj (grid0.coords t) y)
    = packedRows (fun r => sigma (argParams m c) (rowOf (m ((c : Thread nD τ).loc main_arg0)) r))
      (fun r => rgb (argParams m c) (rowOf (m ((c : Thread nD τ).loc main_arg0)) r)) (((cfg0.win 9).blk t).view.emb y)
  exact packedRows_congr _ _ _ _ _ _ ⟨(y 0).val, hy0⟩ ⟨4096 * t.val + (y 0).val, by omega⟩ rfl
    (by show win0_9.index t (0 : Fin 2) * 4096 + 1 * (y 0).val = 4096 * t.val + (y 0).val; rw [e0]; omega)
    (by show (y 1).val = win0_9.index t (1 : Fin 2) * 17 + 1 * (y 1).val; rw [e1]; omega)
    (by show sigma _ _ = sigma _ _
        rw [row_eq m c t ⟨(y 0).val, hy0⟩ ⟨4096 * t.val + (y 0).val, by omega⟩ rfl])
    (by funext j; show rgb _ _ j = rgb _ _ j
        rw [row_eq m c t ⟨(y 0).val, hy0⟩ ⟨4096 * t.val + (y 0).val, by omega⟩ rfl])

/-- Every row of the packed array lies in some grid point's block. -/
theorem cover (c : Dev nD) (i : S2097152x17.Idx) :
    ∃ t : Fin cfg0.N, (cfg0.win 9).flush t = true ∧ i ∈ ((cfg0.win 9).blk t).view.set := by
  have hN : cfg0.N = 512 := N_0
  have hi0 : (i 0).val < 2097152 := (i 0).isLt
  have hi1 : (i 1).val < 17 := (i 1).isLt
  let t : Fin cfg0.N := ⟨(i 0).val / 4096, by rw [hN]; omega⟩
  obtain ⟨e0, e1⟩ := idx9 t
  refine ⟨t, flush0_9 t, ?_⟩
  show i ∈ ((View.whole main_v4).slice (win0_9.rect t)).set
  rw [View.set_slice_whole, Rect.mem_set_unit]
  intro a
  match a with
  | ⟨0, _⟩ =>
    show win0_9.index t (0 : Fin 2) * 4096 ≤ (i 0).val ∧ (i 0).val < win0_9.index t (0 : Fin 2) * 4096 + 4096
    rw [e0]; show (i 0).val / 4096 * 4096 ≤ (i 0).val ∧ (i 0).val < (i 0).val / 4096 * 4096 + 4096; omega
  | ⟨1, _⟩ =>
    show win0_9.index t (1 : Fin 2) * 17 ≤ (i 1).val ∧ (i 1).val < win0_9.index t (1 : Fin 2) * 17 + 17
    rw [e1]; omega

/-- After the launch the packed array holds the packed network of every row. -/
theorem final (c : Dev nD) : (dats m 0 c).arrAt 9 cfg0.N = packedArr m c :=
  (dats m 0 c).arrAt_eq_of_cover 9 (packedArr m c) (flushed_eq m c) (cover c)

/-- The first result: column 0 of the packed array, as a vector. -/
theorem tail_sigma (c : Dev nD) :
    Pipeline.afterTail₀ cfgs (dats m) 0 (V0 m) [hostOps1] c main_v6
      = sigmaOut (m ((c : Thread nD τ).loc main_arg0)) (argParams m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v4) = packedArr m c :=
    (Pipeline.withArrays_arr spec0 launch0.win.arr_inj c _ _ 9).trans (final m c)
  rw [hw]
  funext i
  obtain ⟨r, rfl⟩ : ∃ r : Fin 2097152, i = ix1 r := ⟨i 0, eq_ix1 i⟩
  show shapeCast S2097152 (extractStridedSlice S2097152x1 ![0, 0] (packedArr m c) slices_S2097152x17_S2097152x1_0_0)
    shapeCasts_S2097152x1_S2097152 (ix1 r) = _
  rw [shapeCast_apply _ _ (ix1 r) (ix2 r (0 : Fin 1)) (by
    rw [Shape.rowMajor_val_two, Shape.rowMajor_val_one]; show r.val * 1 + 0 = r.val; omega)]
  rw [slice2_axis1_apply 0 _ _ r (0 : Fin 1) (0 : Fin 17) rfl]
  exact packedRows_zero _ _ _ r rfl rfl

/-- The second result: columns 1 to 16 of the packed array. -/
theorem tail_rgb (c : Dev nD) :
    Pipeline.afterTail₀ cfgs (dats m) 0 (V0 m) [hostOps1] c main_v7
      = rgbOut (m ((c : Thread nD τ).loc main_arg0)) (argParams m c) := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v4) = packedArr m c :=
    (Pipeline.withArrays_arr spec0 launch0.win.arr_inj c _ _ 9).trans (final m c)
  rw [hw]
  funext i
  obtain ⟨r, j, rfl⟩ : ∃ (r : Fin 2097152) (j : Fin 16), i = ix2 r j := ⟨i 0, i 1, eq_ix2 i⟩
  show extractStridedSlice S2097152x16 ![0, 1] (packedArr m c) slices_S2097152x17_S2097152x16_0_1 (ix2 r j) = _
  rw [slice2_axis1_apply 1 _ _ r j (⟨j.val + 1, by have := j.isLt; omega⟩ : Fin 17) (by show j.val + 1 = 1 + j.val; omega)]
  exact packedRows_succ _ _ _ r j rfl rfl

/-- The run, read: every weakly fair execution ends with the two results at the network's two outputs and the
    arguments as they were (the feature matrix and the weight matrices because an input window's array is never
    written, the bias vectors because no operation writes them). -/
theorem run : θ_run defs (onTc (τ := τ) (main (F := Ideal))) ⟨m, fun _ => 0, ρ⟩ fun r => ∀ c : Dev nD,
      r.2.mem ((c.tc : Thread nD τ).loc main_v6) = sigmaOut (m ((c.tc : Thread nD τ).loc main_arg0)) (argParams m c)
      ∧ r.2.mem ((c.tc : Thread nD τ).loc main_v7) = rgbOut (m ((c.tc : Thread nD τ).loc main_arg0)) (argParams m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v6 (Pipeline.mem_restRefs_of main_v6 (by decide) (by decide))).trans (tail_sigma m c),
      ((h c).2 main_v7 (Pipeline.mem_restRefs_of main_v7 (by decide) (by decide))).trans (tail_rgb m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩)
    (run_main m ρ)

end Cert.Mlp.Kernel

end
-- ==== Proof.RefValue.lean ====
/-
  The reference program's two results are the network of `Network.lean`, row by row.

  The reference computes on whole arrays: a matrix product, a bias added after two broadcasts, a maximum with a zero
  splat, twice; then one matrix product per head. Read at one element, each stage is the row's formula: the
  product's element `(r, j)` is `∑ k, A (r, k) · B (k, j)`, the broadcast bias at `(r, j)` is `b j`, the splat is `0`.
  So stage by stage the element `(r, j)` of the first rectified layer is `hidden1` of row `r` at `j`, of the second is
  `hidden2`, and the heads follow: the density head reshapes a one-column matrix to a vector (element `r` is element
  `(r, 0)`), subtracts the splat of `1` and applies the guarded softplus; the colour head adds its bias. The only
  algebra on the extended reals is `z - 0 = z`, and that a number never differs from itself, so the softplus's
  guard `d ≠ d` picks the second branch.
-/
import proofs.«128788_j2439541424397_1_alg».proof.Proof.Gen.ReferenceIdeal.Read
import proofs.«128788_j2439541424397_1_alg».proof.Proof.Network
import Idealize.ShloMosaic.Lib.ValueIdx
import Idealize.ShloMosaic.PureOps.Ideal.Laws
import Idealize.ShloMosaic.PureOps.IdealRules
import Mathlib.Algebra.Group.Basic
import Mathlib.Data.EReal.Operations

noncomputable section

namespace Cert.Mlp.Ref

open Cert.ReferenceIdeal Cert.ReferenceIdeal.Gen Cert.ReferenceIdeal.Read
open Idealize.ShloMosaic Idealize.ShloMosaic.ValueIdx Cert.Mlp

/-! ## The first layer -/

/-- In the first product, element `(r, j)` reads the left factor at `(r, k)`. -/
theorem lidx_v0 (r : Fin 2097152) (j : Fin 64) (k : Fin 32) : lidx_main_v0 (ix2 r j) k = ix2 r k := by
  funext a; match a with | ⟨0, _⟩ => rfl | ⟨1, _⟩ => rfl

/-- In the first product, element `(r, j)` reads the right factor at `(k, j)`. -/
theorem ridx_v0 (r : Fin 2097152) (j : Fin 64) (k : Fin 32) : ridx_main_v0 (ix2 r j) k = ix2 k j := by
  funext a; match a with | ⟨0, _⟩ => rfl | ⟨1, _⟩ => rfl

/-- The first bias, broadcast along the rows, is `b0 j` at `(r, j)`. -/
theorem bias_v2 (x2 : (⟨S64, .f32⟩ : BufTy).Contents (Elt Ideal)) (r : Fin 2097152) (j : Fin 64) :
    val_main_v2 (F := Ideal) x2 (ix2 r j) = x2 (ix1 j) := by
  rw [val_main_v2_apply, val_main_v1_apply]
  exact congrArg x2 (funext fun a => match a with | ⟨0, _⟩ => rfl)

/-- The first rectifier's splat is `0` everywhere. -/
theorem zero_call0 (i : S2097152x64.Idx) : val_main_call0_v0 (F := Ideal) i = 0 := by
  rw [val_main_call0_v0_apply, val_main_call0_cst_apply]
  exact Ideal.ofBits_zero_f32

/-- Element `(r, j)` of the first rectified layer is `hidden1` of row `r` at `j`. -/
theorem hidden1_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x16, .f32⟩ : BufTy).Contents (Elt Ideal))
    (x8 : (⟨S16, .f32⟩ : BufTy).Contents (Elt Ideal)) (r : Fin 2097152) (j : Fin 64) :
    val_main_v4 (F := Ideal) x0 x1 x2 (ix2 r j) = hidden1 (paramsOf x1 x2 x3 x4 x5 x6 x7 x8) (rowOf x0 r) j := by
  rw [val_main_v4_apply, val_main_v3_apply, val_main_v0_apply, bias_v2, zero_call0]
  simp only [lidx_v0, ridx_v0]
  rfl

/-! ## The second layer -/

/-- In the second product, element `(r, j)` reads the left factor at `(r, k)`. -/
theorem lidx_v5 (r : Fin 2097152) (j : Fin 64) (k : Fin 64) : lidx_main_v5 (ix2 r j) k = ix2 r k := by
  funext a; match a with | ⟨0, _⟩ => rfl | ⟨1, _⟩ => rfl

/-- In the second product, element `(r, j)` reads the right factor at `(k, j)`. -/
theorem ridx_v5 (r : Fin 2097152) (j : Fin 64) (k : Fin 64) : ridx_main_v5 (ix2 r j) k = ix2 k j := by
  funext a; match a with | ⟨0, _⟩ => rfl | ⟨1, _⟩ => rfl

/-- The second bias, broadcast along the rows, is `b1 j` at `(r, j)`. -/
theorem bias_v7 (x4 : (⟨S64, .f32⟩ : BufTy).Contents (Elt Ideal)) (r : Fin 2097152) (j : Fin 64) :
    val_main_v7 (F := Ideal) x4 (ix2 r j) = x4 (ix1 j) := by
  rw [val_main_v7_apply, val_main_v6_apply]
  exact congrArg x4 (funext fun a => match a with | ⟨0, _⟩ => rfl)

/-- The second rectifier's splat is `0` everywhere. -/
theorem zero_call1 (i : S2097152x64.Idx) : val_main_call1_v0 (F := Ideal) i = 0 := by
  rw [val_main_call1_v0_apply, val_main_call1_cst_apply]
  exact Ideal.ofBits_zero_f32

/-- Element `(r, j)` of the second rectified layer is `hidden2` of row `r` at `j`. -/
theorem hidden2_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x16, .f32⟩ : BufTy).Contents (Elt Ideal))
    (x8 : (⟨S16, .f32⟩ : BufTy).Contents (Elt Ideal)) (r : Fin 2097152) (j : Fin 64) :
    val_main_v9 (F := Ideal) x0 x1 x2 x3 x4 (ix2 r j) = hidden2 (paramsOf x1 x2 x3 x4 x5 x6 x7 x8) (rowOf x0 r) j := by
  rw [val_main_v9_apply, val_main_v8_apply, val_main_v5_apply, bias_v7, zero_call1]
  simp only [lidx_v5, ridx_v5, hidden1_eq x0 x1 x2 x3 x4 x5 x6 x7 x8]
  rfl

/-! ## The density head -/

/-- In the density head's product, element `(r, 0)` reads the left factor at `(r, k)`. -/
theorem lidx_v10 (r : Fin 2097152) (k : Fin 64) : lidx_main_v10 (ix2 r (0 : Fin 1)) k = ix2 r k := by
  funext a; match a with | ⟨0, _⟩ => rfl | ⟨1, _⟩ => rfl

/-- In the density head's product, element `(r, 0)` reads the right factor at `(k, 0)`. -/
theorem ridx_v10 (r : Fin 2097152) (k : Fin 64) : ridx_main_v10 (ix2 r (0 : Fin 1)) k = ix2 k (0 : Fin 1) := by
  funext a; match a with | ⟨0, _⟩ => rfl | ⟨1, _⟩ => rfl

/-- The density head's one-element bias, broadcast to a column, is that element everywhere. -/
theorem bias_v12 (x6 : (⟨S1, .f32⟩ : BufTy).Contents (Elt Ideal)) (i : S2097152x1.Idx) :
    val_main_v12 (F := Ideal) x6 i = x6 (ix1 (0 : Fin 1)) := by
  rw [val_main_v12_apply, val_main_v11_apply]
  exact congrArg x6 (funext fun a => match a with | ⟨0, _⟩ => rfl)

/-- Reshaping a one-column matrix to a vector: element `r` is element `(r, 0)`, since `r / 1 = r`. -/
theorem idx_v14 (r : Fin 2097152) : idx_main_v14 (ix1 r) = ix2 r (0 : Fin 1) := by
  funext a; match a with
  | ⟨0, _⟩ => exact Fin.ext (Nat.div_one _)
  | ⟨1, _⟩ => rfl

/-- The binary32 word `0x3F800000` is the number one. -/
theorem one_f32 : Ideal.ofBits .f32 0x3F800000#32 = 1 := IdealRules.sign_bit.ideal_onePat .f32

/-- The splat of one is `1` everywhere. -/
theorem one_v15 (i : S2097152.Idx) : val_main_v15 (F := Ideal) i = 1 := by
  rw [val_main_v15_apply, val_main_cst_apply]
  exact one_f32

/-- The softplus's scalar constant is `0`. -/
theorem zero_call2 (i : S_.Idx) : val_main_call2_cst (F := Ideal) i = 0 := by
  rw [val_main_call2_cst_apply]
  exact Ideal.ofBits_zero_f32

/-- The density head's argument: the linear form of the second hidden layer, minus one. -/
theorem pre_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x16, .f32⟩ : BufTy).Contents (Elt Ideal))
    (x8 : (⟨S16, .f32⟩ : BufTy).Contents (Elt Ideal)) (r : Fin 2097152) :
    val_main_v16 (F := Ideal) x0 x1 x2 x3 x4 x5 x6 (ix1 r)
      = ((∑ k : Fin 64, hidden2 (paramsOf x1 x2 x3 x4 x5 x6 x7 x8) (rowOf x0 r) k * (paramsOf x1 x2 x3 x4 x5 x6 x7 x8).Ws k)
          + (paramsOf x1 x2 x3 x4 x5 x6 x7 x8).bs) - 1 := by
  rw [val_main_v16_apply, val_main_v14_apply, idx_v14, val_main_v13_apply, val_main_v10_apply, bias_v12, one_v15]
  simp only [lidx_v10, ridx_v10, hidden2_eq x0 x1 x2 x3 x4 x5 x6 x7 x8]
  rfl

/-- The guarded softplus as the reference spells it: the guard compares a number with itself, so the second branch
    is taken, and `z - 0 = z`. -/
theorem softplus_word (z a : Ideal .f32) :
    Scalar.select (FloatOps.cmpf .une (FloatOps.subf z 0) (FloatOps.subf z 0)) a
      (FloatOps.addf (FloatOps.maximumf z 0)
        (FloatOps.hostUnary .log1p (FloatOps.hostUnary .exp (FloatOps.hostNegf (FloatOps.hostAbsf (FloatOps.subf z 0))))))
      = softplus z := by
  have hc : FloatOps.cmpf .une (FloatOps.subf z 0) (FloatOps.subf z 0) = 0#1 := by
    show BitVec.ofBool (decide (z - 0 ≠ z - 0)) = 0#1
    simp
  rw [hc, select_zero]
  show max z 0 + Ideal.log1p (Ideal.exp (-(max (z - 0) (-(z - 0))))) = softplus z
  rw [sub_zero]
  rfl

/-- The reference's softplus stage, element by element, is `softplus` of its argument. -/
theorem softplus_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x16, .f32⟩ : BufTy).Contents (Elt Ideal))
    (x8 : (⟨S16, .f32⟩ : BufTy).Contents (Elt Ideal)) (i : S2097152.Idx) :
    val_main_v17 (F := Ideal) x0 x1 x2 x3 x4 x5 x6 i = softplus (val_main_v16 (F := Ideal) x0 x1 x2 x3 x4 x5 x6 i) := by
  rw [val_main_v17_apply, val_main_call2_v4_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, zero_call2]
  exact softplus_word _ _

/-! ## The colour head -/

/-- In the colour head's product, element `(r, j)` reads the left factor at `(r, k)`. -/
theorem lidx_v18 (r : Fin 2097152) (j : Fin 16) (k : Fin 64) : lidx_main_v18 (ix2 r j) k = ix2 r k := by
  funext a; match a with | ⟨0, _⟩ => rfl | ⟨1, _⟩ => rfl

/-- In the colour head's product, element `(r, j)` reads the right factor at `(k, j)`. -/
theorem ridx_v18 (r : Fin 2097152) (j : Fin 16) (k : Fin 64) : ridx_main_v18 (ix2 r j) k = ix2 k j := by
  funext a; match a with | ⟨0, _⟩ => rfl | ⟨1, _⟩ => rfl

/-- The colour head's bias, broadcast along the rows, is `br j` at `(r, j)`. -/
theorem bias_v20 (x8 : (⟨S16, .f32⟩ : BufTy).Contents (Elt Ideal)) (r : Fin 2097152) (j : Fin 16) :
    val_main_v20 (F := Ideal) x8 (ix2 r j) = x8 (ix1 j) := by
  rw [val_main_v20_apply, val_main_v19_apply]
  exact congrArg x8 (funext fun a => match a with | ⟨0, _⟩ => rfl)

/-! ## The two results -/

/-- The reference's first result is the density of every row. -/
theorem sigma_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x16, .f32⟩ : BufTy).Contents (Elt Ideal))
    (x8 : (⟨S16, .f32⟩ : BufTy).Contents (Elt Ideal)) :
    val_main_v17 (F := Ideal) x0 x1 x2 x3 x4 x5 x6 = sigmaOut x0 (paramsOf x1 x2 x3 x4 x5 x6 x7 x8) := by
  funext i
  obtain ⟨r, rfl⟩ : ∃ r : Fin 2097152, i = ix1 r := ⟨i 0, eq_ix1 i⟩
  rw [softplus_eq x0 x1 x2 x3 x4 x5 x6 x7 x8, pre_eq x0 x1 x2 x3 x4 x5 x6 x7 x8]
  rfl

/-- The reference's second result is the colour features of every row. -/
theorem rgb_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x16, .f32⟩ : BufTy).Contents (Elt Ideal))
    (x8 : (⟨S16, .f32⟩ : BufTy).Contents (Elt Ideal)) :
    val_main_v21 (F := Ideal) x0 x1 x2 x3 x4 x7 x8 = rgbOut x0 (paramsOf x1 x2 x3 x4 x5 x6 x7 x8) := by
  funext i
  obtain ⟨r, j, rfl⟩ : ∃ (r : Fin 2097152) (j : Fin 16), i = ix2 r j := ⟨i 0, i 1, eq_ix2 i⟩
  rw [val_main_v21_apply, val_main_v18_apply, bias_v20]
  simp only [lidx_v18, ridx_v18, hidden2_eq x0 x1 x2 x3 x4 x5 x6 x7 x8]
  rfl

end Cert.Mlp.Ref

end
-- ==== Proof.lean ====
/-
  A two-layer perceptron with two heads, over 2097152 rows of 32 features: the kernel against its jnp reference,
  as exact functions on the extended reals.

  Both programs compute, for every row `x` of the feature matrix,
    h₁ = max (x · W0 + b0) 0,  h₂ = max (h₁ · W1 + b1) 0,
    sigma = softplus (h₂ · Ws + bs − 1),  rgb = h₂ · Wr + br,
  with `softplus z = max z 0 + log1p (exp (−|z|))` guarded by a test `d ≠ d` that never fires on the extended reals
  (`Network.lean`).  The reference does so on whole arrays (`RefValue.lean`).  The kernel does so block by block:
  each of 512 grid points computes 4096 rows with the same sums (its matrix products accumulate into zero, its
  narrowing to sixteen bits is the identity on exact values: `KernelBody.lean`), packs the density and the sixteen
  colour features of a row into one 17-column row (`Packed.lean`, `KernelBlock.lean`), the blocks tile the packed
  array, and the host slices the two results out of it (`KernelWindows.lean`, `KernelArray.lean`).  The two
  programs spell the same sums with the same order of factors and summands, so no law of arithmetic that would need
  finite inputs is used, and the precondition is never opened.
-/
import proofs.«128788_j2439541424397_1_alg».proof.Defs
import proofs.«128788_j2439541424397_1_alg».proof.Proof.Gen.Kernel
import proofs.«128788_j2439541424397_1_alg».proof.Proof.Gen.Kernel.Skeleton
import proofs.«128788_j2439541424397_1_alg».proof.Proof.Gen.Kernel.Launch
import proofs.«128788_j2439541424397_1_alg».proof.Proof.Gen.Kernel.Points
import proofs.«128788_j2439541424397_1_alg».proof.Proof.Gen.Kernel.Frame
import proofs.«128788_j2439541424397_1_alg».proof.Proof.Gen.KernelIdeal
import proofs.«128788_j2439541424397_1_alg».proof.Proof.Gen.KernelIdeal.Skeleton
import proofs.«128788_j2439541424397_1_alg».proof.Proof.Gen.KernelIdeal.Launch
import proofs.«128788_j2439541424397_1_alg».proof.Proof.Gen.KernelIdeal.Points
import proofs.«128788_j2439541424397_1_alg».proof.Proof.Gen.KernelIdeal.Frame
import proofs.«128788_j2439541424397_1_alg».proof.Proof.Gen.ReferenceIdeal
import proofs.«128788_j2439541424397_1_alg».proof.Proof.Gen.ReferenceIdeal.Run
import proofs.«128788_j2439541424397_1_alg».proof.Proof.Gen.ReferenceIdeal.Read
import proofs.«128788_j2439541424397_1_alg».proof.Proof.Gen.Pre_finite_inputs
import proofs.«128788_j2439541424397_1_alg».proof.Proof.KernelArray
import proofs.«128788_j2439541424397_1_alg».proof.Proof.RefValue
import Idealize.ShloMosaic.Adequacy
import Idealize.ShloMosaic.Init

noncomputable section

namespace Cert.Proof

open Idealize.ShloMosaic Idealize.SL.Sem Cert.Kernel

/-- The word-level kernel runs and keeps its arguments. -/
theorem frame_kernel [Cert.Kernel.Facts] [Cert.Pre_finite_inputs.Facts] : Cert.frame_Kernel :=
  fun m ρ _ => Cert.Kernel.Gen.frame m ρ

/-- The idealized kernel runs and keeps its arguments. -/
theorem frame_kernelIdeal [Cert.KernelIdeal.Facts] [Cert.Pre_finite_inputs.Facts] : Cert.frame_KernelIdeal :=
  fun m ρ _ => Cert.KernelIdeal.Gen.frame m ρ

/-- The reference runs and keeps its arguments: its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the nine arguments both programs end with the density and the colour features of
    every row: the kernel by its run read through the packed array, the reference stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Mlp.sigmaOut (m ((c.tc : Thread Cert.KernelIdeal.nD Cert.KernelIdeal.τ).loc Cert.KernelIdeal.main_arg0)) (Cert.Mlp.Kernel.argParams m c),
    fun c => Cert.Mlp.rgbOut (m ((c.tc : Thread Cert.KernelIdeal.nD Cert.KernelIdeal.τ).loc Cert.KernelIdeal.main_arg0)) (Cert.Mlp.Kernel.argParams m c),
    Cert.Mlp.Kernel.run m ρ, ?_⟩
  refine (θ_run Cert.ReferenceIdeal.defs _ _).mono (fun _ h c => ?_) (Cert.ReferenceIdeal.Value.run (F := Ideal) m' ρ')
  obtain ⟨h17, h21, hargs⟩ := h c
  obtain ⟨a0, a1, a2, a3, a4, a5, a6, a7, a8⟩ := hagree c
  refine ⟨h17.trans ?_, h21.trans ?_, hargs⟩
  · rw [Cert.ReferenceIdeal.Read.val_main_v17_eq,
      Cert.Mlp.Ref.sigma_eq _ _ _ _ _ _ _ (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)),
      a0, a1, a2, a3, a4, a5, a6, a7, a8]
  · rw [Cert.ReferenceIdeal.Read.val_main_v21_eq,
      Cert.Mlp.Ref.rgb_eq _ _ _ _ _ (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) _ _,
      a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
